-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512 : Shape := ⟨2, ![4096, 512]⟩
abbrev S4096x32 : Shape := ⟨2, ![4096, 32]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x512 32) (main_arg2 : FVec F S4096x32 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x512 : Shape := ⟨2, ![4096, 512]⟩
abbrev S4096x32 : Shape := ⟨2, ![4096, 32]⟩
abbrev S4096 : Shape := ⟨1, ![4096]⟩
abbrev S8 : Shape := ⟨1, ![8]⟩
abbrev S_ : Shape := ⟨0, ![]⟩
abbrev S4096x512x1 : Shape := ⟨3, ![4096, 512, 1]⟩
abbrev S1x1x8 : Shape := ⟨3, ![1, 1, 8]⟩
abbrev S4096x512x8 : Shape := ⟨3, ![4096, 512, 8]⟩
abbrev S4096x4096 : Shape := ⟨2, ![4096, 4096]⟩
abbrev S131072x128 : Shape := ⟨2, ![131072, 128]⟩
abbrev S131072x1 : Shape := ⟨2, ![131072, 1]⟩
abbrev S8192x4096 : Shape := ⟨2, ![8192, 4096]⟩
abbrev S1x4096 : Shape := ⟨2, ![1, 4096]⟩
abbrev S512x4096 : Shape := ⟨2, ![512, 4096]⟩
abbrev S2048x4096 : Shape := ⟨2, ![2048, 4096]⟩
abbrev S1x2048 : Shape := ⟨2, ![1, 2048]⟩
abbrev S512x2048 : Shape := ⟨2, ![512, 2048]⟩

abbrev nBuf : Space → Nat
  | .hbm => 34
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .i32⟩
  | .hbm, ⟨2, _⟩ => ⟨S4096x32, .f32⟩
  | .hbm, ⟨3, _⟩ => ⟨S4096, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S4096x512x1, .i32⟩
  | .hbm, ⟨15, _⟩ => ⟨S1x1x8, .i32⟩
  | .hbm, ⟨16, _⟩ => ⟨S4096x512x8, .i32⟩
  | .hbm, ⟨17, _⟩ => ⟨S4096x512x8, .i32⟩
  | .hbm, ⟨18, _⟩ => ⟨S4096x512x8, .i32⟩
  | .hbm, ⟨19, _⟩ => ⟨S_, .i32⟩
  | .hbm, ⟨20, _⟩ => ⟨S4096x512x8, .i32⟩
  | .hbm, ⟨21, _⟩ => ⟨S4096x512x8, .i32⟩
  | .hbm, ⟨22, _⟩ => ⟨S4096x4096, .i32⟩
  | .hbm, ⟨23, _⟩ => ⟨S4096x4096, .f32⟩
  | .hbm, ⟨24, _⟩ => ⟨S131072x128, .f32⟩
  | .hbm, ⟨25, _⟩ => ⟨S131072x1, .f32⟩
  | .hbm, ⟨26, _⟩ => ⟨S131072x128, .f32⟩
  | .hbm, ⟨27, _⟩ => ⟨S131072x128, .f32⟩
  | .hbm, ⟨28, _⟩ => ⟨S4096x4096, .f32⟩
  | .hbm, ⟨29, _⟩ => ⟨S4096x4096, .bf16⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S2048x4096, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8 : S_.BroadcastsInDim S8 (![] : Fin 0 → Fin S8.rank)
  bcast_S4096x512_S4096x512x1_0_1 : S4096x512.BroadcastsInDim S4096x512x1 (![0, 1] : Fin 2 → Fin S4096x512x1.rank)
  bcast_S8_S1x1x8_2 : S8.BroadcastsInDim S1x1x8 (![2] : Fin 1 → Fin S1x1x8.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  shapeCasts_S4096x4096_S131072x128 : S4096x4096.ShapeCasts S131072x128
  shapeCasts_S4096x32_S131072x1 : S4096x32.ShapeCasts S131072x1
  bcast_S131072x1_S131072x128_0_1 : S131072x1.BroadcastsInDim S131072x128 (![0, 1] : Fin 2 → Fin S131072x128.rank)
  shapeCasts_S131072x128_S4096x4096 : S131072x128.ShapeCasts S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S8192x4096_S4x2048x4096 : S8192x4096.ShapeCasts S4x2048x4096
  dot_S512x4096_S2048x4096_S512x2048_1_1_0_0_n_n_wf : DotDims.WF S512x4096 S2048x4096 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S4096x4096.size a
  hwx0_1 : ∀ i : grid0.Coords, EltTy.bits .bf16 = 32 ∨ (Rect.block (s := S4096x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x4096.size a
  hwx0_3 : ∀ i : grid0.Coords, EltTy.bits .f32 = 32 ∨ (Rect.block (s := S8192x4096) S512x2048.size (cc0_transform_3 i) (hinb0_3 i)).WholeWords (EltTy.packing .f32)

variable [Facts₀]

def dot_S512x4096_S2048x4096_S512x2048_1_1_0_0_n_n : DotDims S512x4096 S2048x4096 S512x2048 where
  lhsContracting := [1]
  rhsContracting := [1]
  lhsNonContracting := [0]
  rhsNonContracting := [0]
  lhsBatch := []
  rhsBatch := []
  wf := dot_S512x4096_S2048x4096_S512x2048_1_1_0_0_n_n_wf

abbrev win0_0 : Pipeline.Window sig grid0 :=
  Pipeline.Window.ofSpec (Memref.whole main_v22) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x512 : Shape := ⟨2, ![4096, 512]⟩
abbrev S4096x32 : Shape := ⟨2, ![4096, 32]⟩
abbrev S4096 : Shape := ⟨1, ![4096]⟩
abbrev S8 : Shape := ⟨1, ![8]⟩
abbrev S_ : Shape := ⟨0, ![]⟩
abbrev S4096x512x1 : Shape := ⟨3, ![4096, 512, 1]⟩
abbrev S1x1x8 : Shape := ⟨3, ![1, 1, 8]⟩
abbrev S4096x512x8 : Shape := ⟨3, ![4096, 512, 8]⟩
abbrev S4096x4096 : Shape := ⟨2, ![4096, 4096]⟩
abbrev S131072x128 : Shape := ⟨2, ![131072, 128]⟩
abbrev S131072x1 : Shape := ⟨2, ![131072, 1]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .i32⟩
  | .hbm, ⟨2, _⟩ => ⟨S4096x32, .f32⟩
  | .hbm, ⟨3, _⟩ => ⟨S4096, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S4096x512x1, .i32⟩
  | .hbm, ⟨15, _⟩ => ⟨S1x1x8, .i32⟩
  | .hbm, ⟨16, _⟩ => ⟨S4096x512x8, .i32⟩
  | .hbm, ⟨17, _⟩ => ⟨S4096x512x8, .i32⟩
  | .hbm, ⟨18, _⟩ => ⟨S4096x512x8, .i32⟩
  | .hbm, ⟨19, _⟩ => ⟨S_, .i32⟩
  | .hbm, ⟨20, _⟩ => ⟨S4096x512x8, .i32⟩
  | .hbm, ⟨21, _⟩ => ⟨S4096x512x8, .i32⟩
  | .hbm, ⟨22, _⟩ => ⟨S4096x4096, .i32⟩
  | .hbm, ⟨23, _⟩ => ⟨S4096x4096, .f32⟩
  | .hbm, ⟨24, _⟩ => ⟨S131072x128, .f32⟩
  | .hbm, ⟨25, _⟩ => ⟨S131072x1, .f32⟩
  | .hbm, ⟨26, _⟩ => ⟨S131072x128, .f32⟩
  | .hbm, ⟨27, _⟩ => ⟨S131072x128, .f32⟩
  | .hbm, ⟨28, _⟩ => ⟨S4096x4096, .f32⟩
  | .hbm, ⟨29, _⟩ => ⟨S4x2048x4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x512_S4096x512x1_0_1 : S4096x512.BroadcastsInDim S4096x512x1 (![0, 1] : Fin 2 → Fin S4096x512x1.rank)
  bcast_S8_S1x1x8_2 : S8.BroadcastsInDim S1x1x8 (![2] : Fin 1 → Fin S1x1x8.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  shapeCasts_S4096x4096_S131072x128 : S4096x4096.ShapeCasts S131072x128
  shapeCasts_S4096x32_S131072x1 : S4096x32.ShapeCasts S131072x1
  bcast_S131072x1_S131072x128_0_1 : S131072x1.BroadcastsInDim S131072x128 (![0, 1] : Fin 2 → Fin S131072x128.rank)
  shapeCasts_S131072x128_S4096x4096 : S131072x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibDotNT.lean ====
/-
  A matrix product against a transposed right operand, read at one entry. For the dimension numbers "rows × contraction
  by columns × contraction" with no batch axis (both operands contracted on their last axis), the product into a zero
  accumulator, at row `r` and column `q`, is the sum over the contracted coordinate `j` of the left operand at (r, j)
  times the right operand at (q, j). The same holds for the host's `dot_general`. Both are stated over extended reals,
  where the product is the exact sum.
-/
import Idealize.ShloMosaic.PureOps.Ideal.Laws
import Idealize.ShloMosaic.Lib.ValueIdx

noncomputable section

open scoped BigOperators

namespace Cert.LibDotNT

open Idealize.ShloMosaic Idealize.ShloMosaic.ValueIdx

/-- The left operand's index at output entry (r, q) and contracted coordinate `j` is (r, j). -/
theorem nt_lhsIdx (M K N : Nat) (r : Fin M) (q : Fin N) (j : Fin K) :
    (DotDims.transposedRhs M K N).lhsIdx (ix2 r q) ((contrEquiv1 (DotDims.transposedRhs M K N) K rfl rfl).symm j) = ix2 r j := by
  have hj := contrEquiv1_symm_val (DotDims.transposedRhs M K N) K rfl rfl j
  funext a
  apply Fin.ext
  match a with
  | ⟨0, _⟩ => rfl
  | ⟨1, _⟩ => refine Eq.trans ?_ hj; rfl

/-- The right operand's index at output entry (r, q) and contracted coordinate `j` is (q, j): its row is the output's
    column, its column the contracted coordinate. -/
theorem nt_rhsIdx (M K N : Nat) (r : Fin M) (q : Fin N) (j : Fin K) :
    (DotDims.transposedRhs M K N).rhsIdx (ix2 r q) ((contrEquiv1 (DotDims.transposedRhs M K N) K rfl rfl).symm j) = ix2 q j := by
  have hj := contrEquiv1_symm_val (DotDims.transposedRhs M K N) K rfl rfl j
  funext a
  apply Fin.ext
  match a with
  | ⟨0, _⟩ => rfl
  | ⟨1, _⟩ => refine Eq.trans ?_ hj; rfl

/-- The matrix unit's product against a transposed right operand into a zero accumulator, at one entry. -/
theorem matmul_nt_apply {φ₁ φ₂ : FTy} (M K N : Nat) (prec : Option ContractPrecision)
    (A : FVec Ideal ⟨2, ![M, K]⟩ φ₁) (B : FVec Ideal ⟨2, ![N, K]⟩ φ₂) (r : Fin M) (q : Fin N) :
    FloatOps.matmul (DotDims.transposedRhs M K N) prec A B (constant ⟨2, ![M, N]⟩ .f32 0x00000000#32) (ix2 r q)
      = ∑ j : Fin K, A (ix2 r j) * B (ix2 q j) := by
  rw [Ideal.matmul_constant_zero_apply, ← Equiv.sum_comp (contrEquiv1 (DotDims.transposedRhs M K N) K rfl rfl).symm]
  refine Finset.sum_congr rfl fun j _ => ?_
  rw [nt_lhsIdx, nt_rhsIdx]

/-- The host's `dot_general` against a transposed right operand, at one entry. -/
theorem dotGeneral_nt_apply {φ₁ φ₂ : FTy} (M K N : Nat) (prec : Option ContractPrecision) (sched : HostSchedule)
    (A : FVec Ideal ⟨2, ![M, K]⟩ φ₁) (B : FVec Ideal ⟨2, ![N, K]⟩ φ₂) (r : Fin M) (q : Fin N) :
    FloatOps.dotGeneral (DotDims.transposedRhs M K N) prec sched A B (ix2 r q) = ∑ j : Fin K, A (ix2 r j) * B (ix2 q j) := by
  rw [Ideal.dotGeneral_apply, ← Equiv.sum_comp (contrEquiv1 (DotDims.transposedRhs M K N) K rfl rfl).symm]
  refine Finset.sum_congr rfl fun j _ => ?_
  rw [nt_lhsIdx, nt_rhsIdx]

end Cert.LibDotNT

end
-- ==== Proof.KernelPoint.lean ====
/-
  What the kernel's body stores at one entry of its output block.

  At a grid point the body loads a [512, 4096] block of the flattened input, a [2048, 4096] block of the weight (2048
  output features, each a row) and a [1, 2048] block of the bias row; it multiplies the input block by the weight block
  contracted along their last axes, into a zero accumulator, and adds the bias row to every row of the product. The
  format changes on the way are the identity over the extended reals. So the stored block at (r, q) is

      ( Σ_k xblk[r, k] · wblk[q, k] ) + bblk[0, q].
-/
import proofs.«431506_j74783970558269_3_alg».proof.Proof.Gen.KernelIdeal.Skeleton
import proofs.«431506_j74783970558269_3_alg».proof.Proof.LibDotNT
import Idealize.ShloMosaic.Lib.Pipeline.Value
import Idealize.ShloMosaic.Lib.ValueIdx
import Idealize.ShloMosaic.PureOps.Ideal.Laws

noncomputable section

open scoped BigOperators

namespace Cert.KernelIdeal.PointValue

open Cert.KernelIdeal Cert.KernelIdeal.Gen
open Idealize.ShloMosaic Idealize.ShloMosaic.ValueIdx

/-- The body's dimension numbers are those of a product against a transposed right operand: rows by the contracted
    axis, times output features by the contracted axis. -/
theorem dims_eq : dot_S512x4096_S2048x4096_S512x2048_1_1_0_0_n_n = DotDims.transposedRhs 512 4096 2048 := rfl

/-- The stored block at (r, q): the sum over k of the input block at (r, k) times the weight block at (q, k), plus the
    bias row at (0, q). -/
theorem pay_apply (x0 : Vec Ideal S512x4096 .f32) (x1 : Vec Ideal S2048x4096 .bf16) (x2 : Vec Ideal S1x2048 .f32)
    (r : Fin 512) (q : Fin 2048) :
    k0_pay1 (F := Ideal) x0 x1 x2 (ix2 r q)
      = (∑ k : Fin 4096, x0 (ix2 r k) * x1 (ix2 q k)) + x2 (ix2 (⟨0, Nat.one_pos⟩ : Fin 1) q) := by
  unfold k0_pay1
  simp only [shapeCast_self]
  refine congrArg₂ (· + ·) ?_ ?_
  · rw [dims_eq]
    exact Cert.LibDotNT.matmul_nt_apply 512 4096 2048 none _ x1 r q
  · exact broadcastTo_apply x2 broadcasts_S1x2048_S512x2048 (ix2 r q) (ix2 (⟨0, Nat.one_pos⟩ : Fin 1) q) (fun a => match a with
      | ⟨0, _⟩ => by show 0 = if (1 : Nat) = 1 then 0 else _; rw [if_pos rfl]
      | ⟨1, _⟩ => by show q.val = if (2048 : Nat) = 1 then 0 else q.val; rw [if_neg (by decide)])

end Cert.KernelIdeal.PointValue

end
-- ==== Proof.Spec.lean ====
/-
  The linear layer both programs compute, as one function of its operands, entry by entry over the extended reals.

  For an input x of shape [4, 2048, 4096], a weight matrix w of shape [4096, 4096] (one row per output feature) and a
  bias of shape [4096], the layer's value at (b, s, o) is

      ( Σ_k x[b, s, k] · w[o, k] ) + bias[o].

  The kernel computes it on the input flattened to 8192 rows (row r = 2048·b + s), with the bias as a one-row matrix,
  and un-flattens the result; `linearFlat` is that flattened form, and `unflatten_linearFlat` says the un-flattened
  flattened form is the layer itself: flattening keeps the last axis, and the row-major position of (b, s, k) in
  [4, 2048, 4096] is that of (2048·b + s, k) in [8192, 4096]. No law of arithmetic is involved: the two forms are the
  same sum of the same products, the bias added on the same side.
-/
import Idealize.ShloMosaic.PureOps.Ideal.Laws
import Idealize.ShloMosaic.Lib.ValueIdx
import Idealize.ShloMosaic.Lib.Pipeline.Value

noncomputable section

open scoped BigOperators

namespace Cert.Linear

open Idealize.ShloMosaic Idealize.ShloMosaic.ValueIdx

/-- The input's shape [4, 2048, 4096], the weight's [4096, 4096], the bias's [4096]; the flattened input [8192, 4096]
    and the bias as one row [1, 4096]. -/
abbrev SX : Shape := ⟨3, ![4, 2048, 4096]⟩
abbrev SW : Shape := ⟨2, ![4096, 4096]⟩
abbrev SB : Shape := ⟨1, ![4096]⟩
abbrev SXf : Shape := ⟨2, ![8192, 4096]⟩
abbrev SBf : Shape := ⟨2, ![1, 4096]⟩

/-- The layer at (b, s, o): the sum over k of x[b, s, k] · w[o, k], plus bias[o]. -/
def linearOut {φ : FTy} (x : FVec Ideal SX .f32) (w : FVec Ideal SW φ) (bias : FVec Ideal SB .f32) : FVec Ideal SX .f32 :=
  fun i => (∑ k : Fin 4096, x (ix3 (i 0) (i 1) k) * w (ix2 (i 2) k)) + bias (ix1 (i 2))

/-- The flattened layer at (r, o): the sum over k of xf[r, k] · w[o, k], plus the one-row bias at (0, o). -/
def linearFlat {φ : FTy} (xf : FVec Ideal SXf .f32) (w : FVec Ideal SW φ) (bf : FVec Ideal SBf .f32) : FVec Ideal SXf .f32 :=
  fun i => (∑ k : Fin 4096, xf (ix2 (i 0) k) * w (ix2 (i 1) k)) + bf (ix2 (⟨0, Nat.one_pos⟩ : Fin 1) (i 1))

/-- Row 2048·b + s of the flattened input is row (b, s) of the input. -/
theorem flatten_apply {α : Type} (x : SX.Idx → α) (h : SX.ShapeCasts SXf) (b : Fin 4) (s : Fin 2048) (k : Fin 4096)
    (r : Fin 8192) (hr : r.val = b.val * 2048 + s.val) :
    shapeCast SXf x h (ix2 r k) = x (ix3 b s k) := by
  refine shapeCast_apply x h (ix2 r k) (ix3 b s k) ?_
  rewrite [Shape.rowMajor_val_three, Shape.rowMajor_val_two]
  show (b.val * 2048 + s.val) * 4096 + k.val = r.val * 4096 + k.val
  rw [hr]

/-- Entry (b, s, o) of an un-flattened matrix is its entry (2048·b + s, o). -/
theorem unflatten_apply {α : Type} (y : SXf.Idx → α) (h : SXf.ShapeCasts SX) (b : Fin 4) (s : Fin 2048) (o : Fin 4096)
    (r : Fin 8192) (hr : r.val = b.val * 2048 + s.val) :
    shapeCast SX y h (ix3 b s o) = y (ix2 r o) := by
  refine shapeCast_apply y h (ix3 b s o) (ix2 r o) ?_
  rewrite [Shape.rowMajor_val_three, Shape.rowMajor_val_two]
  show r.val * 4096 + o.val = (b.val * 2048 + s.val) * 4096 + o.val
  rw [hr]

/-- The bias as one row, at (0, o), is the bias at o. -/
theorem biasRow_apply {α : Type} (bias : SB.Idx → α) (h : SB.ShapeCasts SBf) (o : Fin 4096) :
    shapeCast SBf bias h (ix2 (⟨0, Nat.one_pos⟩ : Fin 1) o) = bias (ix1 o) := by
  refine shapeCast_apply bias h (ix2 (⟨0, Nat.one_pos⟩ : Fin 1) o) (ix1 o) ?_
  rewrite [Shape.rowMajor_val_one, Shape.rowMajor_val_two]
  show o.val = 0 * 4096 + o.val
  omega

/-- Un-flattening the flattened layer of the flattened input and the one-row bias gives the layer. -/
theorem unflatten_linearFlat {φ : FTy} (x : FVec Ideal SX .f32) (w : FVec Ideal SW φ) (bias : FVec Ideal SB .f32)
    (h1 : SX.ShapeCasts SXf) (h2 : SB.ShapeCasts SBf) (h3 : SXf.ShapeCasts SX) :
    shapeCast SX (linearFlat (shapeCast SXf x h1) w (shapeCast SBf bias h2)) h3 = linearOut x w bias := by
  funext i
  obtain ⟨b, s, o, rfl⟩ : ∃ (b : Fin 4) (s : Fin 2048) (o : Fin 4096), i = ix3 b s o := ⟨i 0, i 1, i 2, eq_ix3 i⟩
  have hlt : b.val * 2048 + s.val < 8192 := by have := b.isLt; have := s.isLt; omega
  rw [unflatten_apply _ h3 b s o ⟨b.val * 2048 + s.val, hlt⟩ rfl]
  unfold linearFlat linearOut
  refine congrArg₂ (· + ·) (Finset.sum_congr rfl fun k _ => ?_) ?_
  · exact congrArg (· * w (ix2 o k)) (flatten_apply x h1 b s k ⟨b.val * 2048 + s.val, hlt⟩ rfl)
  · exact biasRow_apply bias h2 o

end Cert.Linear

end
-- ==== Proof.KernelValue.lean ====
/-
  The kernel's region, read as a value: the [8192, 4096] array it leaves is the flattened linear layer of the arrays it
  finds.

  The grid has 2 × 16 points (c, p): point (c, p) reads rows 512·p … 512·p + 511 of the flattened input, the 2048 weight
  rows (output features) of half c, that half's 2048 entries of the bias row, and writes rows 512·p … of columns
  2048·c … of the result. By the body's value at an entry (KernelPoint), what a point writes at (r, q) of its block is
  the flattened layer at (512·p + r, 2048·c + q): the input block's row r is the input's row 512·p + r, the weight
  block's row q is the weight's row 2048·c + q, and the bias block's entry q is the bias row's entry 2048·c + q. The 32
  blocks tile the result, so the whole array is the flattened layer.
-/
import proofs.«431506_j74783970558269_3_alg».proof.Proof.Gen.KernelIdeal.Frame
import proofs.«431506_j74783970558269_3_alg».proof.Proof.KernelPoint
import proofs.«431506_j74783970558269_3_alg».proof.Proof.Spec
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The three arrays the region reads, as it finds them: the flattened input, the weight, the bias row. -/
abbrev xf (c : Dev nD) : FVec Ideal S8192x4096 .f32 := V m c main_v22
abbrev wq (c : Dev nD) : FVec Ideal S4096x4096 .bf16 := V m c main_v21
abbrev bf (c : Dev nD) : FVec Ideal S1x4096 .f32 := V m c main_v23

theorem hz : (![0, 0] : Fin 2 → Nat) = fun _ => 0 := funext fun a => by fin_cases a <;> rfl

/-- The block indices at a point: the input's row block is the result's row block, the weight's row block and the
    bias row's column block are the result's column block, and every other block index is zero. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 15 ∧ win0_3.index t (1 : Fin 2) ≤ 1 :=
  (by decide +kernel : ∀ t : Fin grid0.N, _)

/-- Every block of the result is some point's. -/
theorem idx_onto : ∀ (q0 : Fin 16) (q1 : Fin 2), ∃ t : Fin cfg0.N, win0_3.index t = ![q0.val, q1.val] :=
  (by decide +kernel : ∀ (q0 : Fin 16) (q1 : Fin 2), ∃ t : Fin grid0.N, win0_3.index t = ![q0.val, q1.val])

/-- What point t writes back is block t of the flattened layer of the arrays the region finds. -/
theorem flushed_eq (c : Dev nD) (t : Fin cfg0.N) :
    (dats m 0 c).flushed 3 t
      = ((cfg0.win 3).blk t).view.read (Elt Ideal) (Cert.Linear.linearFlat (xf m c) (wq m c) (bf m c)) := by
  show (cfg0.win 3).cut (grid0.coords t) ((dats m 0 c).after 3 t) = _
  rw [after0_3]
  unfold out0_3
  rw [View.canon_unit_zero hz]
  simp only [View.ld_unit_zero (S := S512x4096) hz, View.ld_unit_zero (S := S2048x4096) hz, View.ld_unit_zero (S := S1x2048) hz]
  obtain ⟨e0, e1, e2, e3, e4, e5, e6, e7⟩ := idx_facts t
  funext j
  obtain ⟨r, q, rfl⟩ : ∃ (r : Fin 512) (q : Fin 2048), j = ix2 r q := ⟨j 0, j 1, eq_ix2 (n0 := 512) (n1 := 2048) j⟩
  show k0_pay1 (F := Ideal) (iblk m c 0 t) (iblk m c 1 t) (iblk m c 2 t) (ix2 r q)
      = Cert.Linear.linearFlat (xf m c) (wq m c) (bf m c) (((cfg0.win 3).blk t).view.emb (ix2 r q))
  refine (PointValue.pay_apply (iblk m c 0 t) (iblk m c 1 t) (iblk m c 2 t) r q).trans ?_
  unfold Cert.Linear.linearFlat
  refine congrArg₂ (· + ·) (Finset.sum_congr rfl fun k _ => congrArg₂ (· * ·) ?_ ?_) ?_
  · show V m c main_v22 (((cfg0.win 0).blk t).view.emb (ix2 r k))
        = V m c main_v22 (ix2 ((((cfg0.win 3).blk t).view.emb (ix2 r q)) 0) k)
    refine congrArg _ (funext fun a => Fin.ext ?_)
    match a with
    | ⟨0, _⟩ => show win0_0.index t (0 : Fin 2) * 512 + 1 * r.val = win0_3.index t (0 : Fin 2) * 512 + 1 * r.val; omega
    | ⟨1, _⟩ => show win0_0.index t (1 : Fin 2) * 4096 + 1 * k.val = k.val; omega
  · show V m c main_v21 (((cfg0.win 1).blk t).view.emb (ix2 q k))
        = V m c main_v21 (ix2 ((((cfg0.win 3).blk t).view.emb (ix2 r q)) 1) k)
    refine congrArg _ (funext fun a => Fin.ext ?_)
    match a with
    | ⟨0, _⟩ => show win0_1.index t (0 : Fin 2) * 2048 + 1 * q.val = win0_3.index t (1 : Fin 2) * 2048 + 1 * q.val; omega
    | ⟨1, _⟩ => show win0_1.index t (1 : Fin 2) * 4096 + 1 * k.val = k.val; omega
  · show V m c main_v23 (((cfg0.win 2).blk t).view.emb (ix2 (⟨0, Nat.one_pos⟩ : Fin 1) q))
        = V m c main_v23 (ix2 (⟨0, Nat.one_pos⟩ : Fin 1) ((((cfg0.win 3).blk t).view.emb (ix2 r q)) 1))
    refine congrArg _ (funext fun a => Fin.ext ?_)
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + 1 * q.val; omega

/-- An index of the result is in point t's block iff each coordinate is in the block's range on its axis. -/
theorem mem_blk (t : Fin cfg0.N) (i : S8192x4096.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v24).slice (win0_3.rect t)).set ↔ _
  rw [View.set_slice_whole, Rect.mem_set_unit]
  exact Iff.rfl

/-- The 32 blocks tile the result: entry (i0, i1) is in the block of the point with row block i0 / 512 and column
    block i1 / 2048. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The result array after the region: the flattened layer of the arrays the region finds. -/
theorem final (c : Dev nD) :
    (dats m 0 c).arrAt 3 cfg0.N = Cert.Linear.linearFlat (xf m c) (wq m c) (bf m c) :=
  (dats m 0 c).arrAt_eq_of_cover 3 _ (fun t _ => flushed_eq m c t) cover

end Cert.KernelIdeal.RegionValue

end
-- ==== Proof.KernelHost.lean ====
/-
  The kernel's whole program as a value: its result is the linear layer of its arguments, with the un-packed and scaled
  weight as the matrix.

  Before the region the program un-packs and scales the weight exactly as the reference does, operation for operation
  (the same shifts by 32 - 4·(8 - e) and by 28, the same grouping by 128 and the same per-group scale), and then changes
  its format, which over the extended reals is the identity; it flattens the input to [8192, 4096] and views the bias
  as one row. After the region it un-flattens the result. With the region's value (KernelValue) and the flattening
  lemmas of Spec, the result is the layer itself.
-/
import proofs.«431506_j74783970558269_3_alg».proof.Proof.KernelValue
import proofs.«431506_j74783970558269_3_alg».proof.Proof.Gen.ReferenceIdeal.Read
import Idealize.ShloMosaic.Lib.StableHlo.Run

set_option maxRecDepth 16384

noncomputable section

open scoped BigOperators

namespace Cert.KernelIdeal.ProgramValue

open Cert.KernelIdeal Cert.KernelIdeal.Gen Cert.KernelIdeal.RegionValue
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The region finds the input flattened. -/
theorem xf_eq (c : Dev nD) :
    xf m c = shapeCast S8192x4096 (m ((c : Thread nD τ).loc main_arg0)) shapeCasts_S4x2048x4096_S8192x4096 := by
  show StableHlo.after hostOps0 (fun b => m (c, b)) (Proc.devRef .tc main_v22) = _
  after_results
  rfl

/-- The region finds the bias as one row. -/
theorem bf_eq (c : Dev nD) :
    bf m c = shapeCast S1x4096 (m ((c : Thread nD τ).loc main_arg3)) shapeCasts_S4096_S1x4096 := by
  show StableHlo.after hostOps0 (fun b => m (c, b)) (Proc.devRef .tc main_v23) = _
  after_results
  rfl

set_option maxHeartbeats 2000000 in
/-- The region finds, as its weight, the reference's un-packed and scaled weight of the same two arguments: the same
    operations in the same order, followed by a change of format that is the identity here. -/
theorem wq_eq (c : Dev nD) :
    wq m c = Cert.ReferenceIdeal.Read.val_main_v20 (F := Ideal) (m ((c : Thread nD τ).loc main_arg1)) (m ((c : Thread nD τ).loc main_arg2)) := by
  show StableHlo.after hostOps0 (fun b => m (c, b)) (Proc.devRef .tc main_v21) = _
  after_results
  rfl

/-- After the host line that follows the region, the program's result is the region's array un-flattened. -/
theorem tail_result (c : Dev nD) :
    Pipeline.afterTail₀ cfgs (dats m) 0 (V0 m) [hostOps1] c main_v25
      = shapeCast S4x2048x4096 ((dats m 0 c).arrAt 3 cfg0.N) shapeCasts_S8192x4096_S4x2048x4096 := by
  unfold Pipeline.afterTail₀
  show StableHlo.after hostOps1 _ (Proc.devRef .tc main_v25) = _
  after_results
  exact congrArg (fun y => shapeCast S4x2048x4096 y shapeCasts_S8192x4096_S4x2048x4096)
    (Pipeline.withArrays_arr spec0 launch0.win.arr_inj c _ _ 3)

/-- The program's result is the linear layer of the input, the un-packed and scaled weight, and the bias. -/
theorem result_eq (c : Dev nD) :
    Pipeline.afterTail₀ cfgs (dats m) 0 (V0 m) [hostOps1] c main_v25
      = Cert.Linear.linearOut (φ := .f32) (m ((c.tc : Thread nD τ).loc main_arg0))
          (Cert.ReferenceIdeal.Read.val_main_v20 (F := Ideal) (m ((c.tc : Thread nD τ).loc main_arg1)) (m ((c.tc : Thread nD τ).loc main_arg2)))
          (m ((c.tc : Thread nD τ).loc main_arg3)) := by
  rw [tail_result, final, xf_eq, bf_eq, wq_eq]
  exact Cert.Linear.unflatten_linearFlat _ _ _ _ _ _

/-- Every weakly fair execution of the program terminates with its result at the linear layer of its arguments, and its
    arguments as they were. -/
theorem run : θ_run defs (onTc (τ := τ) (main (F := Ideal))) ⟨m, fun _ => 0, ρ⟩ fun r => ∀ c : Dev nD,
      r.2.mem ((c.tc : Thread nD τ).loc main_v25)
        = Cert.Linear.linearOut (φ := .f32) (m ((c.tc : Thread nD τ).loc main_arg0))
            (Cert.ReferenceIdeal.Read.val_main_v20 (F := Ideal) (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ProgramValue

end
-- ==== Proof.RefValue.lean ====
/-
  The reference program's result is the linear layer of its arguments.

  The reference un-packs and scales the weight (its operations up to the one that writes the [4096, 4096] weight), then
  contracts the input's last axis with the weight's last axis and adds the bias broadcast along the first two axes.
  Read at (b, s, o) the contraction is the sum over k of x[b, s, k] · w[o, k], and the broadcast bias is bias[o]: the
  layer of Spec, with the un-packed, scaled weight as its matrix.
-/
import proofs.«431506_j74783970558269_3_alg».proof.Proof.Gen.ReferenceIdeal.Read
import proofs.«431506_j74783970558269_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The left operand of the contraction at (b, s, o) and contracted coordinate k is read at (b, s, k). -/
theorem lidx_eq (i : S4x2048x4096.Idx) (k : Fin 4096) : lidx_main_v21 i k = ix3 (i 0) (i 1) k :=
  funext fun a => Fin.ext (by match a with | ⟨0, _⟩ => rfl | ⟨1, _⟩ => rfl | ⟨2, _⟩ => rfl)

/-- The right operand, the weight, is read at (o, k). -/
theorem ridx_eq (i : S4x2048x4096.Idx) (k : Fin 4096) : ridx_main_v21 i k = ix2 (i 2) k :=
  funext fun a => Fin.ext (by match a with | ⟨0, _⟩ => rfl | ⟨1, _⟩ => rfl)

/-- The bias, broadcast along the first two axes, is read at o. -/
theorem bidx_eq (i : S4x2048x4096.Idx) : idx_main_v22 (idx_main_v23 i) = ix1 (i 2) :=
  funext fun a => Fin.ext (by match a with | ⟨0, _⟩ => rfl)

/-- The reference's result, as a function of its four arguments, is the linear layer of the input, the un-packed and
    scaled weight, and the bias. -/
theorem result_eq (x0 : (⟨S4x2048x4096, .f32⟩ : BufTy).Contents (Elt Ideal)) (x1 : (⟨S4096x512, .i32⟩ : BufTy).Contents (Elt Ideal))
    (x2 : (⟨S4096x32, .f32⟩ : BufTy).Contents (Elt Ideal)) (x3 : (⟨S4096, .f32⟩ : BufTy).Contents (Elt Ideal)) :
    val_main_v24 (F := Ideal) x0 x1 x2 x3 = Cert.Linear.linearOut (φ := .f32) x0 (val_main_v20 (F := Ideal) x1 x2) x3 := by
  funext i
  rw [val_main_v24_apply, val_main_v21_apply, val_main_v23_apply, val_main_v22_apply]
  unfold Cert.Linear.linearOut
  simp only [lidx_eq, ridx_eq, bidx_eq, Ideal.addf_def]
  rfl

end Cert.ReferenceIdeal.RefValue

end
-- ==== Proof.lean ====
/-
  The certificate of a weight-only-quantized linear layer, y = x · dequant(w)ᵀ + bias, for x of shape [4, 2048, 4096],
  a [4096, 512] matrix of 32-bit words each packing eight signed 4-bit weights, a [4096, 32] matrix of per-group scales
  (groups of 128 input features) and a bias of length 4096.

  Both programs un-pack and scale the weight with the same operations in the same order: word w, nibble e is
  (w << (32 - 4·(8 - e))) >> 28 with an arithmetic right shift, converted to a float and multiplied by its group's
  scale. The kernel then changes the weight's format (the identity over the extended reals), flattens the input to
  8192 rows, and runs a matrix product over a 2 × 16 grid: each point multiplies 512 input rows by 2048 weight rows
  contracted along the 4096 input features, into a zero accumulator, and adds its 2048 bias entries to every row; the
  32 blocks tile the [8192, 4096] result, which is un-flattened. The reference contracts the input's last axis with
  the weight's last axis in one operation and adds the broadcast bias.

  Over the extended reals both results are, at (b, s, o),

      ( Σ_k x[b, s, k] · w[o, k] ) + bias[o]

  with w the un-packed, scaled weight: the same sum of the same products, with the bias added on the same side. No law
  of arithmetic beyond this identity of terms is used, so finiteness of the inputs is never needed.

  The three frame claims are the generated frames (the reference's is its generated run with the result dropped); the
  idealization rewrote nothing, so the second-to-last claim is trivial; the last claim pairs the kernel's run
  (KernelHost) with the reference's generated run read as the layer (RefValue).
-/
import proofs.«431506_j74783970558269_3_alg».proof.Defs
import proofs.«431506_j74783970558269_3_alg».proof.Proof.Gen.Kernel
import proofs.«431506_j74783970558269_3_alg».proof.Proof.Gen.Kernel.Skeleton
import proofs.«431506_j74783970558269_3_alg».proof.Proof.Gen.Kernel.Launch
import proofs.«431506_j74783970558269_3_alg».proof.Proof.Gen.Kernel.Points
import proofs.«431506_j74783970558269_3_alg».proof.Proof.Gen.Kernel.Frame
import proofs.«431506_j74783970558269_3_alg».proof.Proof.Gen.KernelIdeal
import proofs.«431506_j74783970558269_3_alg».proof.Proof.Gen.KernelIdeal.Skeleton
import proofs.«431506_j74783970558269_3_alg».proof.Proof.Gen.KernelIdeal.Launch
import proofs.«431506_j74783970558269_3_alg».proof.Proof.Gen.KernelIdeal.Points
import proofs.«431506_j74783970558269_3_alg».proof.Proof.Gen.KernelIdeal.Frame
import proofs.«431506_j74783970558269_3_alg».proof.Proof.Gen.ReferenceIdeal
import proofs.«431506_j74783970558269_3_alg».proof.Proof.Gen.ReferenceIdeal.Run
import proofs.«431506_j74783970558269_3_alg».proof.Proof.Gen.ReferenceIdeal.Read
import proofs.«431506_j74783970558269_3_alg».proof.Proof.Gen.Pre_finite_inputs
import proofs.«431506_j74783970558269_3_alg».proof.Proof.KernelHost
import proofs.«431506_j74783970558269_3_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the linear layer of those arguments as their
    result: the kernel's run states it of its own arguments, the reference's run of its own, and the arguments agree. -/
theorem algebraic : Cert.algebraic_KernelIdeal_ReferenceIdeal := by
  intro m ρ m' ρ' _ hagree
  refine ⟨_, Cert.KernelIdeal.ProgramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
